-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S32768 : Shape := ⟨1, ![32768]⟩
abbrev S1000x128 : Shape := ⟨2, ![1000, 128]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_

variable [Facts]

def fn {F : FTy → Type} [FloatOps F] (main_arg0 : FVec F S32768x128 .f32) (main_arg1 : IVec S32768 32) (main_arg2 : FVec F S1000x128 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S1000x128 .f32 := Host.absf main_arg2
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  main_v8
-- ==== Kernel.lean ====
abbrev S32768x128 : Shape := ⟨2, ![32768, 128]⟩
abbrev S32768 : Shape := ⟨1, ![32768]⟩
abbrev S1000x128 : Shape := ⟨2, ![1000, 128]⟩
abbrev S_ : Shape := ⟨0, ![]⟩
abbrev S1024x128 : Shape := ⟨2, ![1024, 128]⟩
abbrev S1024 : Shape := ⟨1, ![1024]⟩
abbrev S1024x1 : Shape := ⟨2, ![1024, 1]⟩
abbrev S1x1024 : Shape := ⟨2, ![1, 1024]⟩
abbrev S2x1x1024 : Shape := ⟨3, ![2, 1, 1024]⟩
abbrev S2048x128 : Shape := ⟨2, ![2048, 128]⟩
abbrev S1x1x1024 : Shape := ⟨3, ![1, 1, 1024]⟩
abbrev S2048 : Shape := ⟨1, ![2048]⟩
abbrev S2048x1 : Shape := ⟨2, ![2048, 1]⟩
abbrev S2048x1024 : Shape := ⟨2, ![2048, 1024]⟩

abbrev nBuf : Space → Nat
  | .hbm => 17
  | .vmem => 7
  | .smem => 0
  | _ => 0

abbrev bufTy : (tb : Table) → Fin (tcTables nBuf tb) → BufTy
  | .hbm, ⟨0, _⟩ => ⟨S32768x128, .f32⟩
  | .hbm, ⟨1, _⟩ => ⟨S32768, .i32⟩
  | .hbm, ⟨2, _⟩ => ⟨S1000x128, .f32⟩
  | .hbm, ⟨3, _⟩ => ⟨S_, .i32⟩
  | .hbm, ⟨4, _⟩ => ⟨S_, .f32⟩
  | .hbm, ⟨5, _⟩ => ⟨S1024x128, .f32⟩
  | .hbm, ⟨6, _⟩ => ⟨S1024x128, .bf16⟩
  | .hbm, ⟨7, _⟩ => ⟨S1024x128, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1x1024, .f32⟩
  | .hbm, ⟨12, _⟩ => ⟨S2x1x1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S1x1024, .f32⟩
  | .local _ .vmem, ⟨3, _⟩ => ⟨S1024x128, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v49 : BitVec 1 := Scalar.cmpi .eq arg1 c7_i32
  let v50 : BitVec 32 := Scalar.extui v49
  let c0_i32_23 : BitVec 32 := 0#32
  let v51 : BitVec 1 := Scalar.cmpi .ne v50 c0_i32_23
  v51

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S1000x128_S1024x128_0240_000 : S1000x128.Pads (![0, 0] : Fin 2 → Nat) ![24, 0] ![0, 0] S1024x128
  h_S_ : 0 < S_.numel
  bitsLt_bf16_f32 : FTy.bits .bf16 < FTy.bits .f32
  reducesTo_S1024x128_S1024_d1 : S1024x128.ReducesTo [1] S1024
  bcast_S1024_S1024x1_0 : S1024.BroadcastsInDim S1024x1 (![0] : Fin 1 → Fin S1024x1.rank)
  transposes_S1024x1_S1x1024_1_0 : S1024x1.Transposes [1, 0] S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  inb_S2048x128_S2048x128_0_0 : ∀ a, (![0, 0] : Fin 2 → Nat) a + S2048x128.size a ≤ S2048x128.size a
  h_S2048x128 : 0 < S2048x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S2048x128_S2048 : S2048x128.Reduces [1] S2048
  shapeCasts_S2048_S2048x1 : S2048.ShapeCasts S2048x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2048x1_S2048x1024 : S2048x1.Broadcasts S2048x1024
  broadcasts_S1x1024_S2048x1024 : S1x1024.Broadcasts S2048x1024
  iota_S2048x1024_d1_w32 : S2048x1024.Iotas .tc 32 [1]
  reduces_S2048x1024_S1024 : S2048x1024.Reduces [0] S1024
  shapeCasts_S1024_S1x1024 : S1024.ShapeCasts S1x1024
  shapeCasts_S1x1x1024_S1x1024 : S1x1x1024.ShapeCasts S1x1024
  shapeCasts_S1x1024_S1x1x1024 : S1x1024.ShapeCasts S1x1x1024
  reducesTo_S2x1x1024_S_d0_1_2 : S2x1x1024.ReducesTo [0, 1, 2] S_
  dot_S2048x128_S1024x128_S2048x1024_1_1_0_0_n_n_wf : DotDims.WF S2048x128 S1024x128 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S32768x128.size a
  hwx0_0 : ∀ i : grid0.Coords, EltTy.bits .f32 = 32 ∨ (Rect.block (s := S32768x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .bf16 = 32 ∨ (Rect.block (s := S1024x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S2x1x1024.size a
  hwx0_3 : ∀ i : grid0.Coords, EltTy.bits .f32 = 32 ∨ (Rect.block (s := S2x1x1024) S1x1x1024.size (cc0_transform_3 i) (hinb0_3 i)).WholeWords (EltTy.packing .f32)

variable [Facts₀]

def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32768x128 : Shape := ⟨2, ![32768, 128]⟩
abbrev S32768 : Shape := ⟨1, ![32768]⟩
abbrev S1000x128 : Shape := ⟨2, ![1000, 128]⟩
abbrev S_ : Shape := ⟨0, ![]⟩
abbrev S32768x1 : Shape := ⟨2, ![32768, 1]⟩
abbrev S1000 : Shape := ⟨1, ![1000]⟩
abbrev S1x1000 : Shape := ⟨2, ![1, 1000]⟩
abbrev S32768x1000 : Shape := ⟨2, ![32768, 1000]⟩
abbrev S128x1000 : Shape := ⟨2, ![128, 1000]⟩

abbrev nBuf : Space → Nat
  | .hbm => 48
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768, .i32⟩
  | .hbm, ⟨2, _⟩ => ⟨S1000x128, .f32⟩
  | .hbm, ⟨3, _⟩ => ⟨S32768x128, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S1000x128, .f32⟩
  | .hbm, ⟨8, _⟩ => ⟨S_, .f32⟩
  | .hbm, ⟨9, _⟩ => ⟨S1000, .f32⟩
  | .hbm, ⟨10, _⟩ => ⟨S1x1000, .f32⟩
  | .hbm, ⟨11, _⟩ => ⟨S32768x1000, .f32⟩
  | .hbm, ⟨12, _⟩ => ⟨S32768x1000, .f32⟩
  | .hbm, ⟨13, _⟩ => ⟨S32768x1000, .f32⟩
  | .hbm, ⟨14, _⟩ => ⟨S128x1000, .f32⟩
  | .hbm, ⟨15, _⟩ => ⟨S32768x1000, .f32⟩
  | .hbm, ⟨16, _⟩ => ⟨S_, .f32⟩
  | .hbm, ⟨17, _⟩ => ⟨S32768x1000, .f32⟩
  | .hbm, ⟨18, _⟩ => ⟨S32768x1000, .f32⟩
  | .hbm, ⟨19, _⟩ => ⟨S32768x1000, .f32⟩
  | .hbm, ⟨20, _⟩ => ⟨S_, .f32⟩
  | .hbm, ⟨21, _⟩ => ⟨S32768x1000, .f32⟩
  | .hbm, ⟨22, _⟩ => ⟨S32768x1000, .f32⟩
  | .hbm, ⟨23, _⟩ => ⟨S_, .f32⟩
  | .hbm, ⟨24, _⟩ => ⟨S32768x1000, .f32⟩
  | .hbm, ⟨25, _⟩ => ⟨S32768x1000, .f32⟩
  | .hbm, ⟨26, _⟩ => ⟨S_, .f32⟩
  | .hbm, ⟨27, _⟩ => ⟨S32768x1000, .f32⟩
  | .hbm, ⟨28, _⟩ => ⟨S32768x1000, .f32⟩
  | .hbm, ⟨29, _⟩ => ⟨S_, .f32⟩
  | .hbm, ⟨30, _⟩ => ⟨S32768x1000, .f32⟩
  | .hbm, ⟨31, _⟩ => ⟨S32768x1000, .f32⟩
  | .hbm, ⟨32, _⟩ => ⟨S_, .f32⟩
  | .hbm, ⟨33, _⟩ => ⟨S32768x1000, .f32⟩
  | .hbm, ⟨34, _⟩ => ⟨S32768x1000, .f32⟩
  | .hbm, ⟨35, _⟩ => ⟨S32768x1000, .f32⟩
  | .hbm, ⟨36, _⟩ => ⟨S32768x1000, .f32⟩
  | .hbm, ⟨37, _⟩ => ⟨S_, .f32⟩
  | .hbm, ⟨38, _⟩ => ⟨S32768x1000, .f32⟩
  | .hbm, ⟨39, _⟩ => ⟨S32768x1000, .f32⟩
  | .hbm, ⟨40, _⟩ => ⟨S_, .f32⟩
  | .hbm, ⟨41, _⟩ => ⟨S32768x1000, .f32⟩
  | .hbm, ⟨42, _⟩ => ⟨S32768x1000, .i1⟩
  | .hbm, ⟨43, _⟩ => ⟨S32768x1000, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_9 : Ref sig .tc := ⟨.hbm, 44, rfl⟩
abbrev main_v31 : Ref sig .tc := ⟨.hbm, 45, rfl⟩
abbrev main_cst_10 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  reducesTo_S32768x128_S32768_d1 : S32768x128.ReducesTo [1] S32768
  h_S_ : 0 < S_.numel
  bcast_S32768_S32768x1_0 : S32768.BroadcastsInDim S32768x1 (![0] : Fin 1 → Fin S32768x1.rank)
  reducesTo_S1000x128_S1000_d1 : S1000x128.ReducesTo [1] S1000
  bcast_S1000_S1x1000_1 : S1000.BroadcastsInDim S1x1000 (![1] : Fin 1 → Fin S1x1000.rank)
  bcast_S32768x1_S32768x1000_0_1 : S32768x1.BroadcastsInDim S32768x1000 (![0, 1] : Fin 2 → Fin S32768x1000.rank)
  bcast_S1x1000_S32768x1000_0_1 : S1x1000.BroadcastsInDim S32768x1000 (![0, 1] : Fin 2 → Fin S32768x1000.rank)
  transposes_S1000x128_S128x1000_1_0 : S1000x128.Transposes [1, 0] S128x1000
  bcast_S_S32768x1000 : S_.BroadcastsInDim S32768x1000 (![] : Fin 0 → Fin S32768x1000.rank)
  reducesTo_S32768x1000_S_d0_1 : S32768x1000.ReducesTo [0, 1] S_
  dot_S32768x128_S128x1000_S32768x1000_1_0_0_1_n_n_wf : DotDims.WF S32768x128 S128x1000 S32768x1000 [1] [0] [0] [1] [] []

variable [Facts₀]

def dot_S32768x128_S128x1000_S32768x1000_1_0_0_1_n_n : DotDims S32768x128 S128x1000 S32768x1000 where
  lhsContracting := [1]
  rhsContracting := [0]
  lhsNonContracting := [0]
  rhsNonContracting := [1]
  lhsBatch := []
  rhsBatch := []
  wf := dot_S32768x128_S128x1000_S32768x1000_1_0_0_1_n_n_wf

class Facts : Prop extends Facts₀ where

variable [Facts]
-- ==== Proof.Spec.lean ====
/-
  The loss cell and the total, as mathematics (no program is imported here).

  For a feature row q and a prototype c, with a2 = |x_q|^2, b2 = |p_c|^2 and d = <x_q, p_c>, the squared
  distance is max (a2 + b2 - 2 d) 0, the margin is z = 1 - (1 - dist), and the cell's contribution is the
  clamped softplus: log1p (exp (0.1 * min z 10)) / 0.1 where z < 10, and z itself elsewhere. The result of
  both programs is (0 + the sum of every cell) / 32768000. The constants are kept as the binary32 words
  both programs print; none of them is ever evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The feature matrix's shape, the prototype matrix's, and the shape of the per-core column sums. -/
abbrev SX : Shape := ⟨2, ![32768, 128]⟩
abbrev SP : Shape := ⟨2, ![1000, 128]⟩
abbrev SQC : Shape := ⟨2, ![32768, 1000]⟩
abbrev SOut : Shape := ⟨3, ![2, 1, 1024]⟩

/-- The binary32 words of 0, 1, 2, 10, 0.1 and 32768000, read as extended reals. -/
abbrev w0 : EReal := Ideal.ofBits .f32 0x00000000#32
abbrev w1 : EReal := Ideal.ofBits .f32 0x3F800000#32
abbrev w2 : EReal := Ideal.ofBits .f32 0x40000000#32
abbrev w10 : EReal := Ideal.ofBits .f32 0x41200000#32
abbrev wTenth : EReal := Ideal.ofBits .f32 0x3DCCCCCD#32
abbrev wCount : EReal := Ideal.ofBits .f32 0x4BFA0000#32

/-- The margin z = 1 - (1 - max (a2 + b2 - 2 d) 0) of one (row, prototype) pair. -/
def margin (a2 b2 d : EReal) : EReal := w1 - (w1 - max (a2 + b2 - w2 * d) w0)

/-- One pair's contribution: the clamped softplus of its margin. -/
def cell (a2 b2 d : EReal) : EReal :=
  Scalar.select (Ideal.cmp .olt (margin a2 b2 d) w10)
    (Ideal.div (Ideal.log1p (Ideal.exp (wTenth * min (margin a2 b2 d) w10))) wTenth)
    (margin a2 b2 d)

/-- The squared norm of row `q` of an [n, 128] matrix. -/
def rowSq {n : ℕ} (x : (⟨2, ![n, 128]⟩ : Shape).Idx → EReal) (q : Fin n) : EReal :=
  ∑ k : Fin 128, x (ix2 q k) * x (ix2 q k)

/-- The inner product of row `q` of `x` with row `c` of `p`. -/
def inner {n m : ℕ} (x : (⟨2, ![n, 128]⟩ : Shape).Idx → EReal) (p : (⟨2, ![m, 128]⟩ : Shape).Idx → EReal)
    (q : Fin n) (c : Fin m) : EReal :=
  ∑ k : Fin 128, x (ix2 q k) * p (ix2 c k)

/-- The contribution of feature row `q` and prototype `c`. -/
def lossCell (X : SX.Idx → EReal) (P : SP.Idx → EReal) (q : Fin 32768) (c : Fin 1000) : EReal :=
  cell (rowSq X q) (rowSq P c) (inner X P q c)

/-- The same over all naturals: zero outside the 32768 × 1000 table (the padded columns contribute nothing). -/
def lossN (X : SX.Idx → EReal) (P : SP.Idx → EReal) (q c : ℕ) : EReal :=
  if h : q < 32768 ∧ c < 1000 then lossCell X P ⟨q, h.1⟩ ⟨c, h.2⟩ else 0

theorem lossN_of_lt (X : SX.Idx → EReal) (P : SP.Idx → EReal) {q c : ℕ} (hq : q < 32768) (hc : c < 1000) :
    lossN X P q c = lossCell X P ⟨q, hq⟩ ⟨c, hc⟩ := dif_pos ⟨hq, hc⟩

theorem lossN_of_not_lt (X : SX.Idx → EReal) (P : SP.Idx → EReal) (q : ℕ) {c : ℕ} (hc : ¬c < 1000) :
    lossN X P q c = 0 := dif_neg fun h => hc h.2

/-- The mean both programs return: (0 + the sum of all cells) / 32768000, at the one index of a rank-0 array. -/
def mean (X : SX.Idx → EReal) (P : SP.Idx → EReal) : (⟨0, ![]⟩ : Shape).Idx → EReal :=
  fun _ => Ideal.div (w0 + ∑ j : SQC.Idx, lossN X P (j 0).val (j 1).val) wCount

end Cert.Spec

end
-- ==== Proof.RefSide.lean ====
/-
  The reference's result is the mean of the spec: its 45 host operations, read one at a time at an index, compose
  to (0 + the sum over the 32768 × 1000 table of the loss cells) / 32768000.
-/
import proofs.«404331_j2035814498850_4_alg».proof.Proof.Spec
import proofs.«404331_j2035814498850_4_alg».proof.Proof.Gen.ReferenceIdeal.Read

noncomputable section

namespace Cert.ReferenceIdeal.RefValue

open Idealize.ShloMosaic Idealize.ShloMosaic.ValueIdx Cert.ReferenceIdeal Cert.ReferenceIdeal.Read

/-- The feature row read by the row-norm stage, through its two broadcasts, is row (j 0) at column k. -/
private theorem idx_rowX (j : S32768x1000.Idx) (k : Fin 128) :
    idx_main_v1 (idx_main_v2 (idx_main_v6 j)) k = ix2 (n0 := 32768) (n1 := 128) (j 0) k :=
  funext fun a => Fin.ext (by match a with | ⟨0, _⟩ => rfl | ⟨1, _⟩ => rfl)

/-- The prototype row read by the prototype-norm stage, through its two broadcasts, is row (j 1) at column k. -/
private theorem idx_rowP (j : S32768x1000.Idx) (k : Fin 128) :
    idx_main_v4 (idx_main_v5 (idx_main_v7 j)) k = ix2 (n0 := 1000) (n1 := 128) (j 1) k :=
  funext fun a => Fin.ext (by match a with | ⟨0, _⟩ => rfl | ⟨1, _⟩ => rfl)

/-- The contraction's left operand is read at row (j 0), column k. -/
private theorem idx_dotX (j : S32768x1000.Idx) (k : Fin 128) :
    lidx_main_v10 j k = ix2 (n0 := 32768) (n1 := 128) (j 0) k :=
  funext fun a => Fin.ext (by match a with | ⟨0, _⟩ => rfl | ⟨1, _⟩ => rfl)

/-- The contraction's right operand, through the transpose, is the prototype matrix at row (j 1), column k. -/
private theorem idx_dotP (j : S32768x1000.Idx) (k : Fin 128) :
    idx_main_v9 (ridx_main_v10 j k) = ix2 (n0 := 1000) (n1 := 128) (j 1) k :=
  funext fun a => Fin.ext (by match a with | ⟨0, _⟩ => rfl | ⟨1, _⟩ => rfl)

/-- The reference's margin stage at (q, c) is the spec's margin of the two squared norms and the inner product. -/
private theorem stage_margin (X : (⟨S32768x128, .f32⟩ : BufTy).Contents (Elt Ideal)) (P : (⟨S1000x128, .f32⟩ : BufTy).Contents (Elt Ideal))
    (j : S32768x1000.Idx) :
    val_main_v19 (F := Ideal) X P j
      = Cert.Spec.margin (Cert.Spec.rowSq X (j 0)) (Cert.Spec.rowSq P (j 1)) (Cert.Spec.inner X P (j 0) (j 1)) := by
  rw [val_main_v19_apply, val_main_v18_apply, val_main_cst_4_apply, val_main_v17_apply, val_main_v16_apply,
    val_main_cst_3_apply, val_main_v15_apply, val_main_v14_apply, val_main_cst_2_apply, val_main_v13_apply,
    val_main_v12_apply, val_main_v11_apply, val_main_cst_1_apply, val_main_v10_apply, val_main_v8_apply,
    val_main_v7_apply, val_main_v5_apply, val_main_v4_apply, val_main_cst_0_apply, val_main_v6_apply,
    val_main_v2_apply, val_main_v1_apply, val_main_cst_apply]
  simp only [val_main_v9_apply, val_main_v3_apply, val_main_v0_apply, idx_rowX, idx_rowP, idx_dotX, idx_dotP,
    Ideal.ofBits_def, Ideal.mulf_def, Ideal.addf_def, Ideal.subf_def, Ideal.maximumf_def]
  rw [Ideal.ofBits_zero_f32, zero_add, zero_add]
  simp only [Cert.Spec.margin, Cert.Spec.rowSq, Cert.Spec.inner, Cert.Spec.w0, Cert.Spec.w1, Cert.Spec.w2,
    Ideal.ofBits_zero_f32]

/-- The reference's select stage at (q, c) is the loss cell of feature row q and prototype c. -/
theorem stage_cell (X : (⟨S32768x128, .f32⟩ : BufTy).Contents (Elt Ideal)) (P : (⟨S1000x128, .f32⟩ : BufTy).Contents (Elt Ideal))
    (j : S32768x1000.Idx) :
    val_main_v30 (F := Ideal) X P j = Cert.Spec.lossN X P (j 0).val (j 1).val := by
  rw [Cert.Spec.lossN_of_lt X P (j 0).isLt (j 1).isLt]
  show val_main_v30 (F := Ideal) X P j = Cert.Spec.lossCell X P (j 0) (j 1)
  rw [val_main_v30_apply, val_main_v29_apply, val_main_v28_apply, val_main_cst_8_apply, val_main_v27_apply,
    val_main_v26_apply, val_main_cst_7_apply, val_main_v25_apply, val_main_v24_apply, val_main_v23_apply,
    val_main_v22_apply, val_main_cst_6_apply, val_main_v21_apply, val_main_v20_apply, val_main_cst_5_apply,
    stage_margin]
  rfl

/-- The reference's last stage is the spec's mean. -/
theorem result_eq (X : (⟨S32768x128, .f32⟩ : BufTy).Contents (Elt Ideal)) (P : (⟨S1000x128, .f32⟩ : BufTy).Contents (Elt Ideal)) :
    val_main_v32 (F := Ideal) X P = Cert.Spec.mean X P := by
  funext i
  rw [val_main_v32_apply, val_main_v31_apply, val_main_cst_9_apply, val_main_cst_10_apply,
    Finset.sum_congr rfl fun j _ => stage_cell X P j]
  rfl

end Cert.ReferenceIdeal.RefValue

end
-- ==== Proof.Tile.lean ====
/-
  One grid point's work on the accumulator, read at an index.

  At a grid point the body holds a [2048, 128] block x0 of feature rows, the [1, 1024] row x1 of padded
  prototype squared norms and the [1024, 128] padded prototype block x2. It forms the 2048 × 1024 table of
  loss cells (row norm + prototype norm - 2 × inner product, clamped, softplus), zeroes the columns from 1000 on,
  sums each column over the 2048 rows and adds that to the accumulator it finds.
-/
import proofs.«404331_j2035814498850_4_alg».proof.Proof.Spec
import proofs.«404331_j2035814498850_4_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Idealize.ShloMosaic Idealize.ShloMosaic.ValueIdx Cert.KernelIdeal Cert.KernelIdeal.Gen

/-! ### Two column layouts read at coordinates -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The three non-pointwise values of the table -/

/-- The squared norm of row `r`: the lane sum of the block's squares. -/
theorem rowNorm_apply (x0 : FVec Ideal S2048x128 .f32) (hφ : FKind.Formats FTy.f32)
    (hacc : (0x00000000#32 : BitVec 32) = 0x00000000#32) (r : Fin 2048) :
    multiReduction (F := Ideal) .add [1] S2048 (mulf x0 x0) 0x00000000#32 reduces_S2048x128_S2048 hφ hacc (ix1 r)
      = ∑ k : Fin 128, x0 (ix2 r k) * x0 (ix2 r k) := by
  refine (Ideal.multiReduction_add_single (mulf x0 x0) 0x00000000#32 reduces_S2048x128_S2048 hφ hacc (ix1 r)).trans ?_
  refine Finset.sum_congr rfl fun k _ => ?_
  have e : reduces_S2048x128_S2048.lift (ix1 r) k = ix2 r k := funext fun a => Fin.ext (by
    match a with
    | ⟨0, _⟩ => rfl
    | ⟨1, _⟩ => rfl)
  rw [e]
  rfl

/-- The row norms as a column broadcast over the table: at `(r, c)` the squared norm of row `r`. -/
theorem rowNormTable_apply (x0 : FVec Ideal S2048x128 .f32) (hφ : FKind.Formats FTy.f32)
    (hacc : (0x00000000#32 : BitVec 32) = 0x00000000#32) (r : Fin 2048) (c : Fin 1024) :
    broadcastTo S2048x1024 (shapeCast S2048x1
        (multiReduction (F := Ideal) .add [1] S2048 (mulf x0 x0) 0x00000000#32 reduces_S2048x128_S2048 hφ hacc)
        shapeCasts_S2048_S2048x1) broadcasts_S2048x1_S2048x1024 (ix2 r c)
      = ∑ k : Fin 128, x0 (ix2 r k) * x0 (ix2 r k) := by
  refine (broadcastTo_a1_ab_apply _ broadcasts_S2048x1_S2048x1024 r c).trans ?_
  refine (shapeCast_a_a1_apply _ shapeCasts_S2048_S2048x1 r (0 : Fin 1)).trans ?_
  exact rowNorm_apply x0 hφ hacc r

/-- The prototype norms as a row broadcast over the table: at `(r, c)` the row's entry at `c`. -/
theorem protoNormTable_apply (x1 : FVec Ideal S1x1024 .f32) (r : Fin 2048) (c : Fin 1024) :
    broadcastTo S2048x1024 (shapeCast S1x1024 x1 shapeCasts_S1x1024_S1x1024) broadcasts_S1x1024_S2048x1024 (ix2 r c)
      = x1 (ix2 (0 : Fin 1) c) := by
  rw [shapeCast_self]
  exact broadcastTo_1b_ab_apply x1 broadcasts_S1x1024_S2048x1024 r c

/-! ### The product of the block with the prototypes -/

theorem lhs_dot_0 (i : S2048x1024.Idx) (q : dot_S2048x128_S1024x128_S2048x1024_1_1_0_0_n_n.contr.Idx) :
    (dot_S2048x128_S1024x128_S2048x1024_1_1_0_0_n_n.lhsIdx i q 0).val = (i 0).val := by
  unfold DotDims.lhsIdx
  rw [dif_neg (show ¬(0 : Fin S2048x128.rank) ∈ dot_S2048x128_S1024x128_S2048x1024_1_1_0_0_n_n.lhsBatch by decide), dif_pos (show (0 : Fin S2048x128.rank) ∈ dot_S2048x128_S1024x128_S2048x1024_1_1_0_0_n_n.lhsNonContracting by decide)]
  rfl
theorem lhs_dot_1 (i : S2048x1024.Idx) (q : dot_S2048x128_S1024x128_S2048x1024_1_1_0_0_n_n.contr.Idx) :
    (dot_S2048x128_S1024x128_S2048x1024_1_1_0_0_n_n.lhsIdx i q 1).val = (q ⟨0, by decide⟩).val :=
  dot_S2048x128_S1024x128_S2048x1024_1_1_0_0_n_n.lhsIdx_val_of_single rfl i q
theorem rhs_dot_0 (i : S2048x1024.Idx) (q : dot_S2048x128_S1024x128_S2048x1024_1_1_0_0_n_n.contr.Idx) :
    (dot_S2048x128_S1024x128_S2048x1024_1_1_0_0_n_n.rhsIdx i q 0).val = (i 1).val := by
  unfold DotDims.rhsIdx
  rw [dif_neg (show ¬(0 : Fin S1024x128.rank) ∈ dot_S2048x128_S1024x128_S2048x1024_1_1_0_0_n_n.rhsBatch by decide), dif_pos (show (0 : Fin S1024x128.rank) ∈ dot_S2048x128_S1024x128_S2048x1024_1_1_0_0_n_n.rhsNonContracting by decide)]
  rfl
theorem rhs_dot_1 (i : S2048x1024.Idx) (q : dot_S2048x128_S1024x128_S2048x1024_1_1_0_0_n_n.contr.Idx) :
    (dot_S2048x128_S1024x128_S2048x1024_1_1_0_0_n_n.rhsIdx i q 1).val = (q ⟨0, by decide⟩).val :=
  dot_S2048x128_S1024x128_S2048x1024_1_1_0_0_n_n.rhsIdx_val_of_single rfl i q

/-- The product at `(r, c)`: the inner product of row `r` of the block with row `c` of the prototypes. -/
theorem product_apply (x0 : FVec Ideal S2048x128 .f32) (x2 : FVec Ideal S1024x128 .bf16) (r : Fin 2048) (c : Fin 1024) :
    matmul dot_S2048x128_S1024x128_S2048x1024_1_1_0_0_n_n none (truncf .bf16 x0 bitsLt_bf16_f32)
        (shapeCast S1024x128 x2 shapeCasts_S1024x128_S1024x128) (constant (F := Ideal) S2048x1024 .f32 0x00000000#32) (ix2 r c)
      = ∑ k : Fin 128, x0 (ix2 r k) * x2 (ix2 c k) := by
  rw [shapeCast_self]
  refine (Ideal.matmul_constant_zero_apply dot_S2048x128_S1024x128_S2048x1024_1_1_0_0_n_n none
    (truncf .bf16 x0 bitsLt_bf16_f32) x2 (ix2 r c)).trans ?_
  rw [← Equiv.sum_comp (contrEquiv1 dot_S2048x128_S1024x128_S2048x1024_1_1_0_0_n_n 128 rfl rfl).symm]
  refine Finset.sum_congr rfl fun k _ => ?_
  have hk := contrEquiv1_symm_val dot_S2048x128_S1024x128_S2048x1024_1_1_0_0_n_n 128 rfl rfl k
  have el : dot_S2048x128_S1024x128_S2048x1024_1_1_0_0_n_n.lhsIdx (ix2 r c)
      ((contrEquiv1 dot_S2048x128_S1024x128_S2048x1024_1_1_0_0_n_n 128 rfl rfl).symm k) = ix2 r k :=
    funext fun a => Fin.ext (by
      match a with
      | ⟨0, _⟩ => exact lhs_dot_0 _ _
      | ⟨1, _⟩ => exact (lhs_dot_1 _ _).trans hk)
  have er : dot_S2048x128_S1024x128_S2048x1024_1_1_0_0_n_n.rhsIdx (ix2 r c)
      ((contrEquiv1 dot_S2048x128_S1024x128_S2048x1024_1_1_0_0_n_n 128 rfl rfl).symm k) = ix2 c k :=
    funext fun a => Fin.ext (by
      match a with
      | ⟨0, _⟩ => exact rhs_dot_0 _ _
      | ⟨1, _⟩ => exact (rhs_dot_1 _ _).trans hk)
  rw [el, er]
  rfl

/-! ### The column mask -/

/-- The lane number of column `c` is below the word 1000, as signed words, exactly when `c < 1000`. -/
theorem mask_iff (c : Fin 1024) :
    IntOp.cmpi .slt (BitVec.ofNat 32 c.val) 1000#32 = 1#1 ↔ c.val < 1000 := by
  have hc := c.isLt
  have h1 : (BitVec.ofNat 32 c.val).toInt = (c.val : Int) := by
    have hm : c.val % 2 ^ 32 = c.val := Nat.mod_eq_of_lt (by omega)
    rw [BitVec.toInt_eq_toNat_cond, BitVec.toNat_ofNat, hm, if_pos (by omega)]
  have h2 : (1000#32 : BitVec 32).toInt = 1000 := by decide
  unfold IntOp.cmpi
  show BitVec.ofBool ((BitVec.ofNat 32 c.val).slt 1000#32) = 1#1 ↔ c.val < 1000
  rw [BitVec.slt_eq_decide, h1, h2]
  by_cases h : c.val < 1000
  · have h' : (c.val : Int) < 1000 := by omega
    rw [decide_eq_true h']
    exact ⟨fun _ => h, fun _ => rfl⟩
  · have h' : ¬ (c.val : Int) < 1000 := by omega
    rw [decide_eq_false h']
    exact ⟨fun e => absurd e (by decide), fun e => absurd e h⟩

/-! ### The table, the masked table, the column sums -/

/-- The table at `(r, c)`: the cell of row `r`'s squared norm, the prototype norm at `c` and their inner product. -/
theorem table_apply (x0 : Vec Ideal S2048x128 .f32) (x1 : Vec Ideal S1x1024 .f32) (x2 : Vec Ideal S1024x128 .bf16)
    (r : Fin 2048) (c : Fin 1024) :
    k0_pay3 (F := Ideal) x0 x2 x1 (ix2 r c)
      = Cert.Spec.cell (∑ k : Fin 128, x0 (ix2 r k) * x0 (ix2 r k)) (x1 (ix2 (0 : Fin 1) c))
          (∑ k : Fin 128, x0 (ix2 r k) * x2 (ix2 c k)) := by
  have e : k0_pay3 (F := Ideal) x0 x2 x1 (ix2 r c)
      = Cert.Spec.cell
          (broadcastTo S2048x1024 (shapeCast S2048x1
            (multiReduction (F := Ideal) .add [1] S2048 (mulf (φ := .f32) x0 x0) 0x00000000#32 reduces_S2048x128_S2048 (.inl rfl) rfl)
            shapeCasts_S2048_S2048x1) broadcasts_S2048x1_S2048x1024 (ix2 r c))
          (broadcastTo S2048x1024 (shapeCast S1x1024 x1 shapeCasts_S1x1024_S1x1024) broadcasts_S1x1024_S2048x1024 (ix2 r c))
          (matmul dot_S2048x128_S1024x128_S2048x1024_1_1_0_0_n_n none (truncf .bf16 x0 bitsLt_bf16_f32)
            (shapeCast S1024x128 x2 shapeCasts_S1024x128_S1024x128) (constant (F := Ideal) S2048x1024 .f32 0x00000000#32) (ix2 r c)) := rfl
  rw [e, rowNormTable_apply, protoNormTable_apply, product_apply]

/-- The table with the columns from 1000 on zeroed, at `(r, c)`. -/
theorem maskedTable_apply (x0 : Vec Ideal S2048x128 .f32) (x1 : Vec Ideal S1x1024 .f32) (x2 : Vec Ideal S1024x128 .bf16)
    (h : S2048x1024.Iotas .tc 32 [1]) (r : Fin 2048) (c : Fin 1024) :
    select (cmpi .slt (iota .tc S2048x1024 32 [1] h) k0_pay4) (k0_pay3 (F := Ideal) x0 x2 x1)
        (broadcast S2048x1024 (Scalar.ofBits (F := Ideal) .f32 0x00000000#32)) (ix2 r c)
      = if c.val < 1000 then
          Cert.Spec.cell (∑ k : Fin 128, x0 (ix2 r k) * x0 (ix2 r k)) (x1 (ix2 (0 : Fin 1) c))
            (∑ k : Fin 128, x0 (ix2 r k) * x2 (ix2 c k))
        else Cert.Spec.w0 := by
  have hi : iota .tc S2048x1024 32 [1] h (ix2 r c) = BitVec.ofNat 32 c.val :=
    iota_single_apply .tc S2048x1024 32 1 h (ix2 r c)
  show Scalar.select (IntOp.cmpi .slt (iota .tc S2048x1024 32 [1] h (ix2 r c)) 1000#32)
      (k0_pay3 (F := Ideal) x0 x2 x1 (ix2 r c)) Cert.Spec.w0 = _
  rw [hi, table_apply]
  by_cases hc : c.val < 1000
  · rw [(mask_iff c).mpr hc, select_one, if_pos hc]
  · rw [eq_zero_of_ne_one (fun e => hc ((mask_iff c).mp e)), select_zero, if_neg hc]

/-- A column sum of a 2048 × 1024 table: the sum of column `c` over the rows. -/
theorem colSum_apply (t : FVec Ideal S2048x1024 .f32) (hφ : FKind.Formats FTy.f32)
    (hacc : (0x00000000#32 : BitVec 32) = 0x00000000#32) (c : Fin 1024) :
    multiReduction (F := Ideal) .add [0] S1024 t 0x00000000#32 reduces_S2048x1024_S1024 hφ hacc (ix1 c)
      = ∑ r : Fin 2048, t (ix2 r c) := by
  refine (Ideal.multiReduction_add_single t 0x00000000#32 reduces_S2048x1024_S1024 hφ hacc (ix1 c)).trans ?_
  refine Finset.sum_congr rfl fun r _ => ?_
  have e : reduces_S2048x1024_S1024.lift (ix1 c) r = ix2 r c := funext fun a => Fin.ext (by
    match a with
    | ⟨0, _⟩ => rfl
    | ⟨1, _⟩ => rfl)
  rw [e]
  rfl

variable {F : FTy → Type} [FloatOps F]

/-- The accumulator after one grid point: the column sums of the point's masked cell table added to what it held. -/
def step (x0 : Vec F S2048x128 .f32) (x1 : Vec F S1x1024 .f32) (x2 : Vec F S1024x128 .bf16)
    (a : Vec F S1x1x1024 .f32) : Vec F S1x1x1024 .f32 :=
  k0_pay1 (k0_pay3 x0 x2 x1) (iota .tc S2048x1024 32 [1] Facts₀.iota_S2048x1024_d1_w32) k0_pay4 a

/-- The step at column `c`, over the extended reals: what the accumulator held there plus the sum over the block's
    2048 rows of the row's cell against prototype column `c` — the cell's three arguments are the row's squared norm,
    the column's entry of x1 and the inner product of the row with row `c` of x2 — or of zero from column 1000 on. -/
theorem step_apply (x0 : Vec Ideal S2048x128 .f32) (x1 : Vec Ideal S1x1024 .f32) (x2 : Vec Ideal S1024x128 .bf16)
    (a : Vec Ideal S1x1x1024 .f32) (u v : Fin 1) (c : Fin 1024) :
    step (F := Ideal) x0 x1 x2 a (ix3 u v c)
      = a (ix3 u v c) + ∑ r : Fin 2048,
          (if c.val < 1000 then
            Cert.Spec.cell (∑ k : Fin 128, x0 (ix2 r k) * x0 (ix2 r k)) (x1 (ix2 (0 : Fin 1) c))
              (∑ k : Fin 128, x0 (ix2 r k) * x2 (ix2 c k))
          else Cert.Spec.w0) := by
  have hu : (0 : Fin 1) = u := Fin.ext (by omega)
  unfold step k0_pay1
  refine (shapeCast_ab_1ab_apply _ shapeCasts_S1x1024_S1x1x1024 u v c).trans ?_
  rw [addf_apply]
  refine congrArg₂ (· + ·) ?_ ?_
  · refine (shapeCast_1ab_ab_apply a shapeCasts_S1x1x1024_S1x1024 v c).trans ?_
    rw [hu]
  · refine (shapeCast_a_1a_apply _ shapeCasts_S1024_S1x1024 v c).trans ?_
    refine (colSum_apply _ (.inl rfl) rfl c).trans ?_
    exact Finset.sum_congr rfl fun r _ => maskedTable_apply x0 x1 x2 _ r c

end Cert.KernelIdeal.Tile

end
-- ==== Proof.Pieces.lean ====
/-
  What each control case of the body leaves behind, as values: the accumulator after the point is one `step` from
  what it held before (from zero at a core's first point), and at a core's last point the output block is a copy
  of that accumulator.
-/
import proofs.«404331_j2035814498850_4_alg».proof.Proof.Tile
import proofs.«404331_j2035814498850_4_alg».proof.Proof.Gen.KernelIdeal.Frame
import Idealize.ShloMosaic.Lib.Pipeline.Value
import Idealize.ShloMosaic.Lib.Tactic

set_option maxRecDepth 16384

noncomputable section

namespace Cert.KernelIdeal.Tile

open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The zero block a core's first point stores before it accumulates. -/
abbrev zeroAcc : Vec F S1x1x1024 .f32 := k0_pay2

/-- A later point of a core that is not its last (case B): the accumulator found, stepped once. -/
theorem sout_B (c : Dev nD) (i : grid0.Coords) (arg2 : Memref sig .tc .vmem S2048x128 .f32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S1x1x1024 .f32) (harg5 : arg5.IsWhole) (arg6 : Memref sig .tc .vmem S1x1x1024 .f32) (harg6 : arg6.IsWhole) (hc0 : ¬cond0_0 i) (hc1 : ¬cond0_1 i)
    (x0 : Vec F S2048x128 .f32) (x1 : Vec F S1x1024 .f32) (x2 : Vec F S1024x128 .bf16) (xs0 : Vec F S1x1x1024 .f32) :
    sout0_B_0 c i arg2 harg2 arg3 harg3 arg4 harg4 arg5 harg5 arg6 harg6 hc0 hc1 x0 x1 x2 xs0 = step x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz3]
  simp only [View.readAt_eq_ld, harg2.read_unread, harg3.read_unread, harg4.read_unread, harg6.read_unread,
    View.ld_unit_zero (S := S2048x128) hz2, View.ld_unit_zero (S := S1x1024) hz2, View.ld_unit_zero (S := S1024x128) hz2,
    View.ld_unit_zero (S := S1x1x1024) hz3]
  rfl

/-- A core's last point (case C): the accumulator found, stepped once, … -/
theorem sout_C (c : Dev nD) (i : grid0.Coords) (arg2 : Memref sig .tc .vmem S2048x128 .f32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S1x1x1024 .f32) (harg5 : arg5.IsWhole) (arg6 : Memref sig .tc .vmem S1x1x1024 .f32) (harg6 : arg6.IsWhole) (hc0 : ¬cond0_0 i) (hc1 : cond0_1 i)
    (x0 : Vec F S2048x128 .f32) (x1 : Vec F S1x1024 .f32) (x2 : Vec F S1024x128 .bf16) (xs0 : Vec F S1x1x1024 .f32) :
    sout0_C_0 c i arg2 harg2 arg3 harg3 arg4 harg4 arg5 harg5 arg6 harg6 hc0 hc1 x0 x1 x2 xs0 = step x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz3]
  simp only [View.readAt_eq_ld, harg2.read_unread, harg3.read_unread, harg4.read_unread, harg6.read_unread,
    View.ld_unit_zero (S := S2048x128) hz2, View.ld_unit_zero (S := S1x1024) hz2, View.ld_unit_zero (S := S1024x128) hz2,
    View.ld_unit_zero (S := S1x1x1024) hz3]
  rfl

/-- … and the output block written there is that same stepped accumulator, read back. -/
theorem out_C (c : Dev nD) (i : grid0.Coords) (arg2 : Memref sig .tc .vmem S2048x128 .f32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S1x1x1024 .f32) (harg5 : arg5.IsWhole) (arg6 : Memref sig .tc .vmem S1x1x1024 .f32) (harg6 : arg6.IsWhole) (hc0 : ¬cond0_0 i) (hc1 : cond0_1 i)
    (x0 : Vec F S2048x128 .f32) (x1 : Vec F S1x1024 .f32) (x2 : Vec F S1024x128 .bf16) (xs0 : Vec F S1x1x1024 .f32) :
    out0_C_3 c i arg2 harg2 arg3 harg3 arg4 harg4 arg5 harg5 arg6 harg6 hc0 hc1 x0 x1 x2 xs0 = step x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S1x1x1024) _ hz3]
  simp only [View.readAt_eq_ld, harg2.read_unread, harg3.read_unread, harg4.read_unread, harg6.read_unread,
    View.ld_unit_zero (S := S2048x128) hz2, View.ld_unit_zero (S := S1x1024) hz2, View.ld_unit_zero (S := S1024x128) hz2,
    View.ld_unit_zero (S := S1x1x1024) hz3]
  rfl

/-- A core's first point (case A): the zero block, stepped once. -/
theorem sout_A (c : Dev nD) (i : grid0.Coords) (arg2 : Memref sig .tc .vmem S2048x128 .f32) (harg2 : arg2.IsWhole) (arg3 : Memref sig .tc .vmem S1x1024 .f32) (harg3 : arg3.IsWhole) (arg4 : Memref sig .tc .vmem S1024x128 .bf16) (harg4 : arg4.IsWhole) (arg5 : Memref sig .tc .vmem S1x1x1024 .f32) (harg5 : arg5.IsWhole) (arg6 : Memref sig .tc .vmem S1x1x1024 .f32) (harg6 : arg6.IsWhole) (hc0 : cond0_0 i) (hc1 : ¬cond0_1 i)
    (x0 : Vec F S2048x128 .f32) (x1 : Vec F S1x1024 .f32) (x2 : Vec F S1024x128 .bf16) :
    sout0_A_0 c i arg2 harg2 arg3 harg3 arg4 harg4 arg5 harg5 arg6 harg6 hc0 hc1 x0 x1 x2 = step x0 x1 x2 zeroAcc := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1x1024) hz3, View.readCov_unit_zero (S := S1x1x1024) _ hz3]
  simp only [View.readAt_eq_ld, harg2.read_unread, harg3.read_unread, harg4.read_unread, harg6.read_unread,
    View.ld_unit_zero (S := S2048x128) hz2, View.ld_unit_zero (S := S1x1024) hz2, View.ld_unit_zero (S := S1024x128) hz2,
    View.ld_unit_zero (S := S1x1x1024) hz3]
  rfl

end Cert.KernelIdeal.Tile

end
-- ==== Proof.Chain.lean ====
/-
  The accumulator along the grid. The sixteen points run core 0's eight tiles, then core 1's. What the carried
  accumulator holds after a point is one `step` (on that point's blocks) from what the point before left, except at
  a core's first point (points 0 and 8), where it is one step from the zero block; and the output block a core's last
  point (points 7 and 15) writes is the accumulator it has just updated. So after point 8 q + j the accumulator is the
  fold of j + 1 steps from zero over tiles 8 q … 8 q + j.
-/
import proofs.«404331_j2035814498850_4_alg».proof.Proof.Pieces
import Idealize.ShloMosaic.Lib.Pipeline.Value

set_option maxRecDepth 16384

noncomputable section

namespace Cert.KernelIdeal.Tile

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The step of point `n`: on the three blocks the windows hold there. -/
def stepAt (c : Dev nD) (n : ℕ) (h : n < cfg0.N) (a : Vec F S1x1x1024 .f32) : Vec F S1x1x1024 .f32 :=
  step (iblk m c 0 ⟨n, h⟩) (iblk m c 1 ⟨n, h⟩) (iblk m c 2 ⟨n, h⟩) a

/-- At a core's first point the accumulator is left one step from zero. -/
theorem scr_reset (c : Dev nD) (n : ℕ) (h : n < cfg0.N) (h0 : n % 8 = 0) :
    (outsAt0 m c n h).2 = stepAt m c n h zeroAcc := by
  have h1 : ¬n % 8 = 7 := by omega
  rw [outsAt0_A m c ⟨n, h⟩ h0 h1]
  dsimp only
  unfold stepAt
  exact sout_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh))
    (iblk m c 0 ⟨n, h⟩) (iblk m c 1 ⟨n, h⟩) (iblk m c 2 ⟨n, h⟩)

/-- At every other point it is left one step from what the point before left. -/
theorem scr_step (c : Dev nD) (n : ℕ) (h : n + 1 < cfg0.N) (h0 : ¬(n + 1) % 8 = 0) :
    (outsAt0 m c (n + 1) h).2 = stepAt m c (n + 1) h (outsAt0 m c n (Nat.lt_of_succ_lt h)).2 := by
  by_cases h1 : (n + 1) % 8 = 7
  · rw [outsAt0_C m c ⟨n + 1, h⟩ h0 h1]
    dsimp only
    unfold stepAt
    exact sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1)
      (iblk m c 0 ⟨n + 1, h⟩) (iblk m c 1 ⟨n + 1, h⟩) (iblk m c 2 ⟨n + 1, h⟩) (outsAt0 m c n (Nat.lt_of_succ_lt h)).2
  · rw [outsAt0_B m c ⟨n + 1, h⟩ h0 h1]
    dsimp only
    unfold stepAt
    exact sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh))
      (iblk m c 0 ⟨n + 1, h⟩) (iblk m c 1 ⟨n + 1, h⟩) (iblk m c 2 ⟨n + 1, h⟩) (outsAt0 m c n (Nat.lt_of_succ_lt h)).2

/-- At a core's last point the output block written is the accumulator just updated. -/
theorem out_last (c : Dev nD) (n : ℕ) (h : n < cfg0.N) (h1 : n % 8 = 7) :
    (outsAt0 m c n h).1 = (outsAt0 m c n h).2 := by
  have h0 : ¬n % 8 = 0 := by omega
  rw [outsAt0_C m c ⟨n, h⟩ h0 h1]
  dsimp only
  exact (out_C c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) ((hcond0_1 ⟨n, h⟩).mpr h1)
      (iblk m c 0 ⟨n, h⟩) (iblk m c 1 ⟨n, h⟩) (iblk m c 2 ⟨n, h⟩) _).trans
    (sout_C c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) ((hcond0_1 ⟨n, h⟩).mpr h1)
      (iblk m c 0 ⟨n, h⟩) (iblk m c 1 ⟨n, h⟩) (iblk m c 2 ⟨n, h⟩) _).symm

/-- So after point 8 q + j (j < 8) the accumulator is the fold of the steps of points 8 q … 8 q + j from zero. -/
theorem scr_fold (c : Dev nD) (q j : ℕ) (hj : j < 8) (h : 8 * q + j < cfg0.N) :
    (outsAt0 m c (8 * q + j) h).2
      = Pipeline.accAt (fun n hn => stepAt m c n hn zeroAcc) (fun n hn a => stepAt m c n hn a) (8 * q) j h :=
  Pipeline.eq_accAt (fun n hn => (outsAt0 m c n hn).2) 8 (fun n hn => stepAt m c n hn zeroAcc)
    (fun n hn a => stepAt m c n hn a) (scr_reset m c) (scr_step m c) q j hj h

end Cert.KernelIdeal.Tile

end
-- ==== Proof.Blocks.lean ====
/-
  What the three input windows hold at a grid point, entry by entry: window 0's block at point t is rows
  2048 t … 2048 t + 2047 of the features; windows 1 and 2 always hold the whole padded prototype norms and the whole
  padded prototype matrix, which the host lines before the launch compute from the prototypes: rows 1000 … 1023 are
  padding, and a row below 1000 is the prototype's own row.
-/
import proofs.«404331_j2035814498850_4_alg».proof.Proof.Spec
import proofs.«404331_j2035814498850_4_alg».proof.Proof.Gen.KernelIdeal.Frame
import Idealize.ShloMosaic.Lib.Pipeline.Value
import Idealize.ShloMosaic.Lib.StableHlo.Run
import Idealize.ShloMosaic.Lib.KernelVsHost
import Idealize.ShloMosaic.Lib.ValueIdx
import Idealize.ShloMosaic.PureOps.Ideal.Laws

set_option maxRecDepth 16384

noncomputable section

namespace Cert.KernelIdeal.Blocks

open Idealize.ShloMosaic Idealize.ShloMosaic.TcCoe Idealize.SL.Sem Idealize.ShloMosaic.StableHlo Idealize.ShloMosaic.ValueIdx
open Cert.KernelIdeal Cert.KernelIdeal.Gen

variable {F : FTy → Type} [FloatOps F]
variable (m : (ℓ : Loc nD τ sig) → Buf (Elt F) ℓ)

/-! ## The index maps, decided once over the sixteen points -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)

/-! ## The blocks -/

/-- Window 0 at point `t`, entry (r, k): the features' entry (2048 t + r, k). -/
theorem iblk0_apply (c : Dev nD) (t : Fin cfg0.N) (r : Fin 2048) (k : Fin 128) (h : 2048 * t.val + r.val < 32768) :
    (iblk m c 0 t : Vec F S2048x128 .f32) (ix2 r k)
      = m ((c : Thread nD τ).loc main_arg0) (ix2 (⟨2048 * t.val + r.val, h⟩ : Fin 32768) k) := by
  unfold iblk
  rw [View.read_apply]
  show V m c main_arg0 _ = _
  refine (congrFun (V_main_arg0 m c) _).trans ?_
  congr 1
  funext a
  apply Fin.ext
  match a with
  | ⟨0, _⟩ => show win0_0.index t 0 * 2048 + 1 * r.val = 2048 * t.val + r.val; rw [(index0 t).1]; omega
  | ⟨1, _⟩ => show win0_0.index t 1 * 128 + 1 * k.val = k.val; rw [(index0 t).2]; omega

/-- Window 1 at any point: the whole [1, 1024] row the host computed. -/
theorem iblk1_apply (c : Dev nD) (t : Fin cfg0.N) (u : Fin 1) (cc : Fin 1024) :
    (iblk m c 1 t : Vec F S1x1024 .f32) (ix2 u cc) = V m c main_v5 (ix2 u cc) := by
  unfold iblk
  rw [View.read_apply]
  show V m c main_v5 _ = _
  congr 1
  funext a
  apply Fin.ext
  match a with
  | ⟨0, _⟩ => show win0_1.index t 0 * 1 + 1 * u.val = u.val; rw [(index1 t).1]; omega
  | ⟨1, _⟩ => show win0_1.index t 1 * 1024 + 1 * cc.val = cc.val; rw [(index1 t).2]; omega

/-- Window 2 at any point: the whole [1024, 128] padded prototype block. -/
theorem iblk2_apply (c : Dev nD) (t : Fin cfg0.N) (cc : Fin 1024) (k : Fin 128) :
    (iblk m c 2 t : Vec F S1024x128 .bf16) (ix2 cc k) = V m c main_v1 (ix2 cc k) := by
  unfold iblk
  rw [View.read_apply]
  show V m c main_v1 _ = _
  congr 1
  funext a
  apply Fin.ext
  match a with
  | ⟨0, _⟩ => show win0_2.index t 0 * 1024 + 1 * cc.val = cc.val; rw [(index2 t).1]; omega
  | ⟨1, _⟩ => show win0_2.index t 1 * 128 + 1 * k.val = k.val; rw [(index2 t).2]; omega

/-! ## The host lines before the launch -/

/-- The prototypes padded with 24 rows of the converted integer zero. -/
def padded (P : (⟨S1000x128, .f32⟩ : BufTy).Contents (Elt F)) : (⟨S1024x128, .f32⟩ : BufTy).Contents (Elt F) :=
  pad S1024x128 ![0, 0] ![24, 0] ![0, 0] P (sitofp (F := F) .f32 (constantI S_ 32 0#32)) Facts₀.pads_S1000x128_S1024x128_0240_000 Facts₀.h_S_

/-- The second operand of the launch: the padded prototypes' squared row norms, as a [1, 1024] row. -/
theorem V_main_v5 (c : Dev nD) :
    (V m c main_v5 : (⟨S1x1024, .f32⟩ : BufTy).Contents (Elt F))
      = transpose S1x1024 [1, 0] (broadcastInDim S1024x1 ![0] Facts₀.bcast_S1024_S1024x1_0
          (Host.reduceAdd (mulf (padded (m ((c : Thread nD τ).loc main_arg2))) (padded (m ((c : Thread nD τ).loc main_arg2))))
            (constant (F := F) S_ .f32 0x00000000#32) Facts₀.reducesTo_S1024x128_S1024_d1 Facts₀.h_S_))
          Facts₀.transposes_S1024x1_S1x1024_1_0 := by
  dsimp only [V, V0]
  simp only [hostOps0, hostOps0_1, hostOps0_2, List.flatten_cons, List.flatten_nil, List.append_nil, List.cons_append,
    List.nil_append]
  after_results
  rfl

/-- The third operand: the padded prototypes, narrowed. -/
theorem V_main_v1 (c : Dev nD) :
    (V m c main_v1 : (⟨S1024x128, .bf16⟩ : BufTy).Contents (Elt F))
      = truncf .bf16 (padded (m ((c : Thread nD τ).loc main_arg2))) Facts₀.bitsLt_bf16_f32 := by
  dsimp only [V, V0]
  simp only [hostOps0, hostOps0_1, hostOps0_2, List.flatten_cons, List.flatten_nil, List.append_nil, List.cons_append,
    List.nil_append]
  after_results
  rfl

end Cert.KernelIdeal.Blocks

end
-- ==== Proof.ChainValue.lean ====
/-
  The accumulator in closed form, over the extended reals. A point's step adds, at column c, the sum over the point's
  2048 feature rows of the loss cell of that row against prototype c (nothing from column 1000 on): the block of
  window 0 at point n is rows 2048 n …, the row of window 1 holds the prototypes' squared norms (zero plus the sum
  of squares), and window 2 the prototypes themselves. So after point 8 q + j the accumulator at column c is
  zero plus the sum over tiles 8 q … 8 q + j of those tile sums.
-/
import proofs.«404331_j2035814498850_4_alg».proof.Proof.Chain
import proofs.«404331_j2035814498850_4_alg».proof.Proof.Blocks
import Idealize.ShloMosaic.Lib.KernelVsHost

set_option maxRecDepth 16384

noncomputable section

namespace Cert.KernelIdeal.Tile

open Idealize.ShloMosaic Idealize.ShloMosaic.TcCoe Idealize.SL.Sem Idealize.ShloMosaic.ValueIdx
open Cert.KernelIdeal Cert.KernelIdeal.Gen Cert.KernelIdeal.Blocks Cert.Spec

variable (m : (ℓ : Loc nD τ sig) → Buf (Elt Ideal) ℓ)

/-- The features and the prototypes as the launch finds them. -/
abbrev feat (c : Dev nD) : SX.Idx → EReal := m ((c : Thread nD τ).loc main_arg0)
abbrev prot (c : Dev nD) : SP.Idx → EReal := m ((c : Thread nD τ).loc main_arg2)

/-- The three blocks a point reads, each at its literal type. -/
abbrev xblk (c : Dev nD) (t : Fin cfg0.N) : Vec Ideal S2048x128 .f32 := iblk m c 0 t
abbrev nblk (c : Dev nD) (t : Fin cfg0.N) : Vec Ideal S1x1024 .f32 := iblk m c 1 t
abbrev pblk (c : Dev nD) (t : Fin cfg0.N) : Vec Ideal S1024x128 .bf16 := iblk m c 2 t

/-! ## The padded prototypes below row 1000 -/

/-- A row below 1000 of the padded matrix is the prototype's row. -/
theorem padded_inside (P : SP.Idx → EReal) (cc : Fin 1024) (k : Fin 128) (h : cc.val < 1000) :
    padded (F := Ideal) P (ix2 cc k) = P (ix2 (⟨cc.val, h⟩ : Fin 1000) k) := by
  unfold padded
  refine pad_apply_of_inside _ _ _ P _ _ _ (ix2 cc k) (ix2 (⟨cc.val, h⟩ : Fin 1000) k) fun a => ?_
  match a with
  | ⟨0, _⟩ => show cc.val = 0 + cc.val * (0 + 1); omega
  | ⟨1, _⟩ => show k.val = 0 + k.val * (0 + 1); omega

/-- Window 2's entry (cc, k), cc < 1000: the prototype's entry. -/
theorem pblk_apply (c : Dev nD) (t : Fin cfg0.N) (cc : Fin 1024) (k : Fin 128) (h : cc.val < 1000) :
    pblk m c t (ix2 cc k) = prot m c (ix2 (⟨cc.val, h⟩ : Fin 1000) k) := by
  refine (iblk2_apply m c t cc k).trans ?_
  rw [V_main_v1]
  exact padded_inside (prot m c) cc k h

/-- Window 1's entry (0, cc), cc < 1000: the prototype's squared norm. -/
theorem nblk_apply (c : Dev nD) (t : Fin cfg0.N) (cc : Fin 1024) (h : cc.val < 1000) :
    nblk m c t (ix2 (0 : Fin 1) cc) = rowSq (prot m c) (⟨cc.val, h⟩ : Fin 1000) := by
  refine (iblk1_apply m c t (0 : Fin 1) cc).trans ?_
  rw [V_main_v5]
  rw [transpose_apply [1, 0] _ Facts₀.transposes_S1024x1_S1x1024_1_0 (ix2 (0 : Fin 1) cc) (ix2 cc (0 : Fin 1)) (fun b => match b with
    | ⟨0, _⟩ => rfl
    | ⟨1, _⟩ => rfl)]
  rw [broadcastInDim_apply _ Facts₀.bcast_S1024_S1024x1_0 _ (ix2 cc (0 : Fin 1)) (ix1 cc) (fun a => match a with
    | ⟨0, _⟩ => by show cc.val = if (1024 : Nat) = 1 then 0 else cc.val; rw [if_neg (by decide)])]
  simp only [Host.reduceAdd, Ideal.hostReduceAdd_def]
  rw [Ideal.hostReduceAdd_single Facts₀.reducesTo_S1024x128_S1024_d1 (by decide)]
  show Ideal.ofBits .f32 0x00000000#32 + _ = _
  rw [Ideal.ofBits_zero_f32, zero_add]
  unfold rowSq
  refine Finset.sum_congr rfl fun k _ => ?_
  have e : (Shape.Reduces.lift (s := S1024x128) (t := S1024) (a := 1) (by decide) (ix1 cc) k) = ix2 cc k :=
    funext fun a => Fin.ext (by match a with | ⟨0, _⟩ => rfl | ⟨1, _⟩ => rfl)
  have hk : padded (F := Ideal) (prot m c)
      (Shape.Reduces.lift (s := S1024x128) (t := S1024) (a := 1) (by decide) (ix1 cc) k)
        = prot m c (ix2 (⟨cc.val, h⟩ : Fin 1000) k) :=
    (congrArg (padded (F := Ideal) (prot m c)) e).trans (padded_inside (prot m c) cc k h)
  exact congrArg₂ (· * ·) hk hk

/-- Window 0's entry (r, k) at point n: the features' entry (2048 n + r, k). -/
theorem xblk_apply (c : Dev nD) (n : ℕ) (hn : n < cfg0.N) (r : Fin 2048) (k : Fin 128) (hq : 2048 * n + r.val < 32768) :
    xblk m c ⟨n, hn⟩ (ix2 r k) = feat m c (ix2 (⟨2048 * n + r.val, hq⟩ : Fin 32768) k) :=
  iblk0_apply m c ⟨n, hn⟩ r k hq

/-! ## One point's addend -/

/-- The cell the body forms at row r, column cc of point n is the table's cell (2048 n + r, cc); zero from column 1000 on. -/
theorem tile_cell (c : Dev nD) (n : ℕ) (hn : n < cfg0.N) (r : Fin 2048) (cc : Fin 1024) :
    (if cc.val < 1000 then
        cell (∑ k : Fin 128, xblk m c ⟨n, hn⟩ (ix2 r k) * xblk m c ⟨n, hn⟩ (ix2 r k))
          (nblk m c ⟨n, hn⟩ (ix2 (0 : Fin 1) cc))
          (∑ k : Fin 128, xblk m c ⟨n, hn⟩ (ix2 r k) * pblk m c ⟨n, hn⟩ (ix2 cc k))
      else w0)
      = lossN (feat m c) (prot m c) (2048 * n + r.val) cc.val := by
  have hN : n < 16 := lt_of_lt_of_eq hn (show cfg0.N = 16 from N_0)
  have hq : 2048 * n + r.val < 32768 := by have := r.isLt; omega
  by_cases hc : cc.val < 1000
  · rw [if_pos hc, lossN_of_lt _ _ hq hc]
    unfold lossCell rowSq Cert.Spec.inner
    rw [nblk_apply m c ⟨n, hn⟩ cc hc]
    simp only [xblk_apply m c n hn r _ hq, pblk_apply m c ⟨n, hn⟩ cc _ hc]
    rfl
  · rw [if_neg hc, lossN_of_not_lt _ _ _ hc]
    exact Ideal.ofBits_zero_f32

/-- What point n adds at an index of the accumulator: its 2048 rows' cells against that column. -/
def addend (c : Dev nD) (n : ℕ) (i : S1x1x1024.Idx) : EReal :=
  ∑ r : Fin 2048, lossN (feat m c) (prot m c) (2048 * n + r.val) (i 2).val

/-- The step of point n adds its addend. -/
theorem stepAt_apply (c : Dev nD) (n : ℕ) (hn : n < cfg0.N) (a : Vec Ideal S1x1x1024 .f32) (i : S1x1x1024.Idx) :
    stepAt m c n hn a i = a i + addend m c n i := by
  obtain ⟨u, v, cc, rfl⟩ : ∃ (u v : Fin 1) (cc : Fin 1024), i = ix3 u v cc := ⟨i 0, i 1, i 2, eq_ix3 i⟩
  unfold stepAt
  refine (step_apply (xblk m c ⟨n, hn⟩) (nblk m c ⟨n, hn⟩) (pblk m c ⟨n, hn⟩) a u v cc).trans ?_
  refine congrArg (a (ix3 u v cc) + ·) ?_
  unfold addend
  exact Finset.sum_congr rfl fun r _ => tile_cell m c n hn r cc

/-- The zero block is the word of zero everywhere. -/
theorem zeroAcc_apply (i : S1x1x1024.Idx) : (zeroAcc (F := Ideal)) i = w0 := by
  show k0_pay2 (F := Ideal) i = _
  unfold k0_pay2
  rw [shapeCast_self]
  rfl

/-- After point 8 q + j the accumulator is zero plus the addends of points 8 q … 8 q + j. -/
theorem scr_closed (c : Dev nD) (q j : ℕ) (hj : j < 8) (h : 8 * q + j < cfg0.N) (i : S1x1x1024.Idx) :
    (outsAt0 m c (8 * q + j) h).2 i = w0 + ∑ s ∈ Finset.range (j + 1), addend m c (8 * q + s) i := by
  rw [scr_fold m c q j hj h]
  exact Pipeline.accAt_add_apply (fun n hn => stepAt m c n hn zeroAcc) (fun n hn a => stepAt m c n hn a)
    (fun _ => w0) (addend m c) (8 * q) 7
    (fun hb i => by rw [stepAt_apply, zeroAcc_apply])
    (fun n hn acc i _ _ => stepAt_apply m c n hn acc i) j (by omega) h i

end Cert.KernelIdeal.Tile

end
-- ==== Proof.Rearrange.lean ====
/-
  The rearrangement of the total: tiles, cores and padded columns against the plain double sum.
-/
import proofs.«404331_j2035814498850_4_alg».proof.Proof.Spec
import Idealize.ShloMosaic.Lib.ValueIdx
import Mathlib.Algebra.BigOperators.Fin
import Mathlib.Logic.Equiv.Fin.Basic

noncomputable section

namespace Cert.Spec

open Idealize.ShloMosaic Idealize.ShloMosaic.ValueIdx

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (g : (⟨3, ![n0, n1, n2]⟩ : Shape).Idx → M) :
    ∑ i, g i = ∑ a : Fin n0, ∑ b : Fin n1, ∑ c : Fin n2, g (ix3 a b c) := by
  rw [← Equiv.sum_comp (idxEquiv3 (n0 := n0) (n1 := n1) (n2 := n2)).symm g, Fintype.sum_prod_type]
  refine Finset.sum_congr rfl fun a _ => ?_
  rw [Fintype.sum_prod_type]
  rfl

/-- A sum over N = m · n consecutive naturals, cut into m blocks of n: the position n · a + b runs through
    block a at offset b. -/
private theorem sum_fin_mul {M : Type*} [AddCommMonoid M] (m n N : ℕ) (hN : N = m * n) (h : ℕ → M) :
    ∑ q : Fin N, h q.val = ∑ a : Fin m, ∑ b : Fin n, h (n * a.val + b.val) := by
  subst hN
  rw [← Equiv.sum_comp finProdFinEquiv (fun q : Fin (m * n) => h q.val), Fintype.sum_prod_type]
  refine Finset.sum_congr rfl fun a _ => Finset.sum_congr rfl fun b _ => ?_
  show h (b.val + n * a.val) = h (n * a.val + b.val)
  rw [Nat.add_comm]

/-- A sum over N = m + n consecutive naturals whose terms vanish from m on is the sum over the first m. -/
private theorem sum_fin_drop {M : Type*} [AddCommMonoid M] (m n N : ℕ) (hN : N = m + n) (h : ℕ → M)
    (hz : ∀ c, ¬c < m → h c = 0) : ∑ c : Fin N, h c.val = ∑ c : Fin m, h c.val := by
  subst hN
  rw [Fin.sum_univ_add]
  have tail : ∑ i : Fin n, h (Fin.natAdd m i).val = 0 :=
    Finset.sum_eq_zero fun i _ => hz _ (by rw [Fin.val_natAdd]; omega)
  rw [tail, add_zero]
  rfl

/-- The rearrangement over the coordinates: two cores, the 1024 padded columns, eight tiles to a core and 2048
    rows to a tile, against the 32768 rows and the 1000 true columns. -/
private theorem core (f : ℕ → ℕ → EReal) (hf : ∀ q c, ¬c < 1000 → f q c = 0) :
    ∑ a : Fin 2, ∑ c : Fin 1024, ∑ s : Fin 8, ∑ r : Fin 2048, f (2048 * (8 * a.val + s.val) + r.val) c.val
      = ∑ q : Fin 32768, ∑ c : Fin 1000, f q.val c.val := by
  have rows : ∑ q : Fin 32768, ∑ c : Fin 1000, f q.val c.val
      = ∑ t : Fin 16, ∑ r : Fin 2048, ∑ c : Fin 1000, f (2048 * t.val + r.val) c.val :=
    sum_fin_mul 16 2048 32768 (by norm_num) (fun q => ∑ c : Fin 1000, f q c.val)
  have tiles : ∑ t : Fin 16, ∑ r : Fin 2048, ∑ c : Fin 1000, f (2048 * t.val + r.val) c.val
      = ∑ a : Fin 2, ∑ s : Fin 8, ∑ r : Fin 2048, ∑ c : Fin 1000, f (2048 * (8 * a.val + s.val) + r.val) c.val :=
    sum_fin_mul 2 8 16 (by norm_num) (fun t => ∑ r : Fin 2048, ∑ c : Fin 1000, f (2048 * t + r.val) c.val)
  rw [rows, tiles]
  refine Finset.sum_congr rfl fun a _ => ?_
  have cols : ∑ c : Fin 1024, ∑ s : Fin 8, ∑ r : Fin 2048, f (2048 * (8 * a.val + s.val) + r.val) c.val
      = ∑ c : Fin 1000, ∑ s : Fin 8, ∑ r : Fin 2048, f (2048 * (8 * a.val + s.val) + r.val) c.val :=
    sum_fin_drop 1000 24 1024 (by norm_num)
      (fun c => ∑ s : Fin 8, ∑ r : Fin 2048, f (2048 * (8 * a.val + s.val) + r.val) c)
      (fun c hc => Finset.sum_eq_zero fun s _ => Finset.sum_eq_zero fun r _ => hf _ _ hc)
  rw [cols, Finset.sum_comm]
  refine Finset.sum_congr rfl fun s _ => ?_
  exact Finset.sum_comm

/-- THE REARRANGEMENT. Sixteen row tiles of 2048 rows, eight per core, each summed down its 1024 columns (the last
    24 columns contribute zero), the eight tile sums of a core added up from zero, then the 2 × 1 × 1024 partial
    sums added up: the same total as the sum over the 32768 × 1000 table. Only commutativity and associativity of
    addition on the extended reals are used. -/
theorem total_eq (f : ℕ → ℕ → EReal) (hf : ∀ q c, ¬c < 1000 → f q c = 0) :
    ∑ j : SOut.Idx, (w0 + ∑ s ∈ Finset.range 8, ∑ r : Fin 2048, f (2048 * (8 * (j 0).val + s) + r.val) (j 2).val)
      = ∑ j : SQC.Idx, f (j 0).val (j 1).val := by
  rw [sum_idx3, sum_idx2]
  show ∑ a : Fin 2, ∑ _b : Fin 1, ∑ c : Fin 1024,
      (w0 + ∑ s ∈ Finset.range 8, ∑ r : Fin 2048, f (2048 * (8 * a.val + s) + r.val) c.val)
    = ∑ q : Fin 32768, ∑ c : Fin 1000, f q.val c.val
  rw [← core f hf]
  refine Finset.sum_congr rfl fun a _ => ?_
  rw [Fintype.sum_unique]
  refine Finset.sum_congr rfl fun c _ => ?_
  rw [show w0 = 0 from Ideal.ofBits_zero_f32, zero_add, Finset.sum_range]

end Cert.Spec

end
-- ==== Proof.Final.lean ====
/-
  The kernel's result. The [2, 1, 1024] array of per-core column sums is written twice: point 7 writes core 0's
  row, point 15 core 1's, each the accumulator after the core's eight tiles. The host lines after the launch add
  up its 2048 entries from zero and divide by 32768000; by the rearrangement that is the mean of the spec.
-/
import proofs.«404331_j2035814498850_4_alg».proof.Proof.ChainValue
import proofs.«404331_j2035814498850_4_alg».proof.Proof.Rearrange
import Idealize.ShloMosaic.Lib.Pipeline.Value
import Idealize.ShloMosaic.Lib.StableHlo.Run

set_option maxRecDepth 16384

noncomputable section

namespace Cert.KernelIdeal.Tile

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Blocks Cert.Spec

variable (m : (ℓ : Loc nD τ sig) → Buf (Elt Ideal) ℓ) (ρ : Dev nD → PrngReg)

/-- The per-core column sums: core i's entry at column c is zero plus, over its eight tiles, the tile's 2048 cells
    against column c. -/
def partialSums (c : Dev nD) : SOut.Idx → EReal := fun i =>
  w0 + ∑ s ∈ Finset.range 8, ∑ r : Fin 2048,
    lossN (feat m c) (prot m c) (2048 * (8 * (i 0).val + s) + r.val) (i 2).val

/-- The accumulator after any point n, in closed form: n lies in the run of its core, at offset n % 8. -/
theorem scr_at (c : Dev nD) (n : ℕ) (h : n < cfg0.N) (i : S1x1x1024.Idx) :
    (outsAt0 m c n h).2 i = w0 + ∑ s ∈ Finset.range (n % 8 + 1), addend m c (8 * (n / 8) + s) i := by
  have key : ∀ (u : ℕ) (hu : u < cfg0.N), u = n → (outsAt0 m c u hu).2 i = (outsAt0 m c n h).2 i :=
    fun u hu e => by subst e; rfl
  have h' : 8 * (n / 8) + n % 8 < cfg0.N := by rw [Nat.div_add_mod]; exact h
  rw [← key (8 * (n / 8) + n % 8) h' (Nat.div_add_mod n 8)]
  exact scr_closed m c (n / 8) (n % 8) (Nat.mod_lt _ (by decide)) h' i

/-- The output window's block index: the core on the first axis, zero on the others. -/
theorem index3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)

/-- What a writing point (7 or 15) writes back is its core's row of the per-core column sums. -/
theorem flushed_eq (c : Dev nD) (t : Fin cfg0.N) (hf : (cfg0.win 3).flush t = true) :
    (dats m 0 c).flushed 3 t = ((cfg0.win 3).blk t).view.read (Elt Ideal) (partialSums m c) := by
  have h7 : t.val % 8 = 7 := (flush0_3 t).mp hf
  show (cfg0.win 3).cut (grid0.coords t) ((dats m 0 c).after 3 t) = _
  rw [after0_3, out_last m c t.val t.isLt h7]
  funext y
  rw [View.read_apply]
  obtain ⟨e0, e1, e2⟩ := index3 t
  have hy0 : (y 0).val < 1 := (y 0).isLt
  have q0 : ((((cfg0.win 3).blk t).view.emb y) 0).val = t.val / 8 := by
    show win0_3.index t 0 * 1 + 1 * (y 0).val = _
    rw [e0]; omega
  have q2 : ((((cfg0.win 3).blk t).view.emb y) 2).val = (y 2).val := by
    show win0_3.index t 2 * 1024 + 1 * (y 2).val = _
    rw [e2]; omega
  refine (scr_at m c t.val t.isLt y).trans ?_
  unfold partialSums addend
  rw [h7, q0, q2]
  exact (cast_eq _ _).symm

/-- An index of the array lies in point t's block iff each coordinate lies in the block's range. -/
theorem mem_blk3 (t : Fin cfg0.N) (i : S2x1x1024.Idx) :
    i ∈ ((cfg0.win 3).blk t).view.set ↔ ∀ a : Fin 3, win0_3.index t a * S1x1x1024.size a ≤ (i a).val
      ∧ (i a).val < win0_3.index t a * S1x1x1024.size a + S1x1x1024.size a := by
  show i ∈ ((View.whole main_v6).slice (win0_3.rect t)).set ↔ _
  rw [View.set_slice_whole, Rect.mem_set_unit]
  exact Iff.rfl

/-- Every entry of the array is written: core i's row by point 8 i + 7. -/
theorem covered (i : S2x1x1024.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 1024 := (i 2).isLt
  have hN : cfg0.N = 16 := N_0
  have ht : 8 * (i 0).val + 7 < cfg0.N := by rw [hN]; omega
  refine ⟨⟨8 * (i 0).val + 7, ht⟩, (flush0_3 _).mpr (by show (8 * (i 0).val + 7) % 8 = 7; omega), ?_⟩
  rw [mem_blk3]
  obtain ⟨e0, e1, e2⟩ := index3 ⟨8 * (i 0).val + 7, ht⟩
  have e0' : win0_3.index ⟨8 * (i 0).val + 7, ht⟩ 0 = (8 * (i 0).val + 7) / 8 := e0
  intro a
  match a with
  | ⟨0, _⟩ =>
    show win0_3.index ⟨8 * (i 0).val + 7, ht⟩ 0 * 1 ≤ (i 0).val ∧ (i 0).val < win0_3.index ⟨8 * (i 0).val + 7, ht⟩ 0 * 1 + 1
    rw [e0']; omega
  | ⟨1, _⟩ =>
    show win0_3.index ⟨8 * (i 0).val + 7, ht⟩ 1 * 1 ≤ (i 1).val ∧ (i 1).val < win0_3.index ⟨8 * (i 0).val + 7, ht⟩ 1 * 1 + 1
    rw [e1]; omega
  | ⟨2, _⟩ =>
    show win0_3.index ⟨8 * (i 0).val + 7, ht⟩ 2 * 1024 ≤ (i 2).val ∧ (i 2).val < win0_3.index ⟨8 * (i 0).val + 7, ht⟩ 2 * 1024 + 1024
    rw [e2]; omega

/-- So after the run the array holds the per-core column sums. -/
theorem final_out (c : Dev nD) : (dats m 0 c).arrAt 3 cfg0.N = partialSums m c :=
  (dats m 0 c).arrAt_eq_of_cover 3 (partialSums m c) (flushed_eq m c) covered

/-- The host lines after the launch, applied to the array: the total from zero, divided by the count. -/
theorem tail_v8 (c : Dev nD) :
    Pipeline.afterTail₀ cfgs (dats m) 0 (V0 m) [hostOps1] c main_v8
      = Host.divf (Host.reduceAdd (partialSums m c) (constant (F := Ideal) S_ .f32 0x00000000#32)
          Facts₀.reducesTo_S2x1x1024_S_d0_1_2 Facts₀.h_S_) (constant (F := Ideal) S_ .f32 0x4BFA0000#32) := by
  unfold Pipeline.afterTail₀
  show StableHlo.after hostOps1 _ (Proc.devRef .tc main_v8) = _
  after_results
  have hw : Pipeline.withArrays (cfgs 0).spec c (V0 m c) (fun w => (dats m 0 c).arrAt w (cfgs 0).N)
      (Proc.tc.devRef main_v6) = partialSums m c :=
    (Pipeline.withArrays_arr spec0 launch0.win.arr_inj c _ _ 3).trans (final_out m c)
  rw [hw]

/-- The total from zero of the per-core column sums, divided by the count, is the mean of the spec. -/
theorem mean_eq (c : Dev nD) :
    Host.divf (Host.reduceAdd (partialSums m c) (constant (F := Ideal) S_ .f32 0x00000000#32)
        Facts₀.reducesTo_S2x1x1024_S_d0_1_2 Facts₀.h_S_) (constant (F := Ideal) S_ .f32 0x4BFA0000#32)
      = Cert.Spec.mean (feat m c) (prot m c) := by
  funext i
  have hsum : Host.reduceAdd (partialSums m c) (constant (F := Ideal) S_ .f32 0x00000000#32)
      Facts₀.reducesTo_S2x1x1024_S_d0_1_2 Facts₀.h_S_ i = w0 + ∑ j : SOut.Idx, partialSums m c j := by
    simp only [Host.reduceAdd, Ideal.hostReduceAdd_def]
    exact Ideal.hostReduceAdd_total Facts₀.reducesTo_S2x1x1024_S_d0_1_2 (fun b => b.elim0) (partialSums m c) _ i
  show FloatOps.hostDivf (Host.reduceAdd (partialSums m c) (constant (F := Ideal) S_ .f32 0x00000000#32)
      Facts₀.reducesTo_S2x1x1024_S_d0_1_2 Facts₀.h_S_ i) (constant (F := Ideal) S_ .f32 0x4BFA0000#32 i) = _
  rw [hsum]
  unfold partialSums
  rw [total_eq (lossN (feat m c) (prot m c)) (fun q cc hc => lossN_of_not_lt _ _ q hc)]
  rfl

/-- THE RUN, READ: every weakly fair execution of the idealized kernel ends with its result at the mean of the spec of
    the arguments as launched, and the arguments unchanged. -/
theorem run : θ_run defs (onTc (τ := τ) (main (F := Ideal))) ⟨m, fun _ => 0, ρ⟩ fun r => ∀ c : Dev nD,
      r.2.mem ((c.tc : Thread nD τ).loc main_v8) = Cert.Spec.mean (feat m c) (prot m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans
        ((tail_v8 m c).trans (mean_eq m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Tile

end
-- ==== Proof.lean ====
/-
  The certificate. Both programs compute the mean, over 32768 feature rows and 1000 prototypes, of a clamped softplus
  of the squared distance: with a2 = |x_q|^2, b2 = |p_c|^2, d = <x_q, p_c>, z = 1 - (1 - max (a2 + b2 - 2 d) 0), the
  cell is log1p (exp (0.1 min z 10)) / 0.1 where z < 10 and z elsewhere, and the result is (0 + the sum of all cells)
  / 32768000.

  The reference forms the whole 32768 × 1000 table and sums it at once. The kernel pads the prototypes to 1024 rows,
  walks sixteen tiles of 2048 feature rows — eight per core — and at each tile adds to a per-core accumulator of 1024
  columns the tile's column sums of the cell table, with the 24 padded columns set to zero; a core's last tile copies
  the accumulator to the core's row of a [2, 1, 1024] array, which the host then sums and divides. Over the extended
  reals the two totals are one sum, re-bracketed and re-ordered: addition there is commutative and associative, the
  padded columns add zero, and below column 1000 the padded prototype rows are the prototypes' own, so each cell the
  kernel forms is the reference's cell of the same (row, prototype) pair — the same words for every constant on both
  sides, a change of float format the identity, a matrix product into a zero accumulator the sum of products. No
  finiteness of the inputs is needed.

  The three frames: the two kernels' are their frame runs; the reference's is its run with the result dropped. The
  idealization rewrote nothing.
-/
import proofs.«404331_j2035814498850_4_alg».proof.Defs
import proofs.«404331_j2035814498850_4_alg».proof.Proof.Gen.Kernel
import proofs.«404331_j2035814498850_4_alg».proof.Proof.Gen.Kernel.Skeleton
import proofs.«404331_j2035814498850_4_alg».proof.Proof.Gen.Kernel.Launch
import proofs.«404331_j2035814498850_4_alg».proof.Proof.Gen.Kernel.Points
import proofs.«404331_j2035814498850_4_alg».proof.Proof.Gen.Kernel.Frame
import proofs.«404331_j2035814498850_4_alg».proof.Proof.Gen.KernelIdeal
import proofs.«404331_j2035814498850_4_alg».proof.Proof.Gen.KernelIdeal.Skeleton
import proofs.«404331_j2035814498850_4_alg».proof.Proof.Gen.KernelIdeal.Launch
import proofs.«404331_j2035814498850_4_alg».proof.Proof.Gen.KernelIdeal.Points
import proofs.«404331_j2035814498850_4_alg».proof.Proof.Gen.KernelIdeal.Frame
import proofs.«404331_j2035814498850_4_alg».proof.Proof.Gen.ReferenceIdeal
import proofs.«404331_j2035814498850_4_alg».proof.Proof.Gen.Pre_finite_inputs
import proofs.«404331_j2035814498850_4_alg».proof.Proof.Gen.ReferenceIdeal.Run
import proofs.«404331_j2035814498850_4_alg».proof.Proof.Gen.ReferenceIdeal.Read
import proofs.«404331_j2035814498850_4_alg».proof.Proof.RefSide
import proofs.«404331_j2035814498850_4_alg».proof.Proof.Final
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- Both runs end at the mean of the spec of the same arguments: the kernel's by the accumulator's closed form and the
    rearrangement, the reference's stage by stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.mean (Cert.KernelIdeal.Tile.feat m c) (Cert.KernelIdeal.Tile.prot m c),
    Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.result_eq, (hagree c).1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
